-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  main_v38

def fn_part1 {F : FTy → Type} [FloatOps F] (main_arg4 : FVec F S256x256 .f32) (main_arg5 : FVec F S256 .f32) (main_arg6 : FVec F S256x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_v33

def fn {F : FTy → Type} [FloatOps F] (main_arg0 : FVec F S8192x256 .f32) (main_arg1 : FVec F S8192x8192 .f32) (main_arg2 : FVec F S256x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_v13 main_v16
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S1x256 : Shape := ⟨2, ![1, 256]⟩
abbrev S8192x1 : Shape := ⟨2, ![8192, 1]⟩
abbrev S2048x256 : Shape := ⟨2, ![2048, 256]⟩
abbrev S512x256 : Shape := ⟨2, ![512, 256]⟩
abbrev S2048x512 : Shape := ⟨2, ![2048, 512]⟩
abbrev S2048x1 : Shape := ⟨2, ![2048, 1]⟩
abbrev S256x512 : Shape := ⟨2, ![256, 512]⟩
abbrev S2048 : Shape := ⟨1, ![2048]⟩
abbrev S8192 : Shape := ⟨1, ![8192]⟩
abbrev S_ : Shape := ⟨0, ![]⟩
abbrev S1 : Shape := ⟨1, ![1]⟩

abbrev nBuf : Space → Nat
  | .hbm => 40
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S8192x256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S8192x256, .bf16⟩
  | .hbm, ⟨13, _⟩ => ⟨S8192x256, .f32⟩
  | .hbm, ⟨14, _⟩ => ⟨S1x256, .f32⟩
  | .hbm, ⟨15, _⟩ => ⟨S8192x256, .f32⟩
  | .hbm, ⟨16, _⟩ => ⟨S8192x256, .f32⟩
  | .hbm, ⟨17, _⟩ => ⟨S8192x256, .bf16⟩
  | .hbm, ⟨18, _⟩ => ⟨S8192x256, .f32⟩
  | .hbm, ⟨19, _⟩ => ⟨S1x256, .f32⟩
  | .hbm, ⟨20, _⟩ => ⟨S8192x256, .f32⟩
  | .hbm, ⟨21, _⟩ => ⟨S8192x256, .f32⟩
  | .hbm, ⟨22, _⟩ => ⟨S8192x1, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S1, .f32⟩
  | .hbm, ⟨29, _⟩ => ⟨S8192, .f32⟩
  | .hbm, ⟨30, _⟩ => ⟨S8192, .f32⟩
  | .hbm, ⟨31, _⟩ => ⟨S8192, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S8192x256, .f32⟩
  | .hbm, ⟨39, _⟩ => ⟨S8192x256, .f32⟩
  | .local _ .vmem, ⟨0, _⟩ => ⟨S2048x256, .bf16⟩
  | .local _ .vmem, ⟨1, _⟩ => ⟨S2048x256, .bf16⟩
  | .local _ .vmem, ⟨2, _⟩ => ⟨S512x256, .bf16⟩
  | .local _ .vmem, ⟨3, _⟩ => ⟨S512x256, .bf16⟩
  | .local _ .vmem, ⟨4, _⟩ => ⟨S2048x512, .f32⟩
  | .local _ .vmem, ⟨5, _⟩ => ⟨S2048x512, .f32⟩
  | .local _ .vmem, ⟨6, _⟩ => ⟨S2048x1, .f32⟩
  | .local _ .vmem, ⟨7, _⟩ => ⟨S2048x1, .f32⟩
  | .local _ .vmem, ⟨8, _⟩ => ⟨S2048x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_11 : BitVec 32 := 0#32
  let v20 : BitVec 1 := Scalar.cmpi .ne v19 c0_i32_11
  v20

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bitsLt_bf16_f32 : FTy.bits .bf16 < FTy.bits .f32
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S512x256_p1_0_S256x512 : S512x256.Transposes [1, 0] S256x512
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  shapeCasts_S2048_S2048x1 : S2048.ShapeCasts S2048x1
  shapeCasts_S8192x1_S8192 : S8192x1.ShapeCasts S8192
  reducesTo_S8192_S_d0 : S8192.ReducesTo [0] S_
  h_S_ : 0 < S_.numel
  bcast_S_S1 : S_.BroadcastsInDim S1 (![] : Fin 0 → Fin S1.rank)
  bcast_S1_S8192_0 : S1.BroadcastsInDim S8192 (![0] : Fin 1 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  dot_S8192x256_S256x256_S8192x256_1_0_0_1_n_n_wf : DotDims.WF S8192x256 S256x256 S8192x256 [1] [0] [0] [1] [] []
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x256.size a
  hwx0_0 : ∀ i : grid0.Coords, EltTy.bits .bf16 = 32 ∨ (Rect.block (s := S8192x256) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .bf16 = 32 ∨ (Rect.block (s := S8192x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S8192x8192.size a
  hwx0_2 : ∀ i : grid0.Coords, EltTy.bits .f32 = 32 ∨ (Rect.block (s := S8192x8192) S2048x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S8192x1.size a
  hwx0_3 : ∀ i : grid0.Coords, EltTy.bits .f32 = 32 ∨ (Rect.block (s := S8192x1) S2048x1.size (cc0_transform_3 i) (hinb0_3 i)).WholeWords (EltTy.packing .f32)

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_v4) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S1x256 : Shape := ⟨2, ![1, 256]⟩
abbrev S256x8192 : Shape := ⟨2, ![256, 8192]⟩
abbrev S_ : Shape := ⟨0, ![]⟩
abbrev S8192 : Shape := ⟨1, ![8192]⟩
abbrev S1 : Shape := ⟨1, ![1]⟩
abbrev S8192x1 : Shape := ⟨2, ![8192, 1]⟩

abbrev nBuf : Space → Nat
  | .hbm => 41
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S8192x256, .f32⟩
  | .hbm, ⟨9, _⟩ => ⟨S1x256, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S1x256, .f32⟩
  | .hbm, ⟨14, _⟩ => ⟨S8192x256, .f32⟩
  | .hbm, ⟨15, _⟩ => ⟨S8192x256, .f32⟩
  | .hbm, ⟨16, _⟩ => ⟨S8192x256, .f32⟩
  | .hbm, ⟨17, _⟩ => ⟨S1x256, .f32⟩
  | .hbm, ⟨18, _⟩ => ⟨S8192x256, .f32⟩
  | .hbm, ⟨19, _⟩ => ⟨S8192x256, .f32⟩
  | .hbm, ⟨20, _⟩ => ⟨S256x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1, .f32⟩
  | .hbm, ⟨30, _⟩ => ⟨S8192, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S1, .f32⟩
  | .hbm, ⟨36, _⟩ => ⟨S8192, .f32⟩
  | .hbm, ⟨37, _⟩ => ⟨S8192, .f32⟩
  | .hbm, ⟨38, _⟩ => ⟨S8192x1, .f32⟩
  | .hbm, ⟨39, _⟩ => ⟨S8192x256, .f32⟩
  | .hbm, ⟨40, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  transposes_S8192x256_S256x8192_1_0 : S8192x256.Transposes [1, 0] S256x8192
  reducesTo_S8192x8192_S8192_d1 : S8192x8192.ReducesTo [1] S8192
  h_S_ : 0 < S_.numel
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.KPieces.lean ====
/-
  What one run of the kernel body leaves behind, as values.

  The body keeps a column accumulator (2048 × 1) in a scratch buffer across the sixteen key blocks of one query
  block. With `step x0 x1 x2 acc` the body's one arithmetic expression — acc + the row sums of x2 ⊙ (x0 · x1ᵀ) —
  the three control cases leave:
    first key block:   the scratch at step … (the zero column),    nothing in the output block;
    middle key blocks: the scratch at step … (the scratch before), nothing in the output block;
    last key block:    the scratch at step … (the scratch before), and the output block at that same column.
  Each is the read-back of the case's covering stores; the loads read whole buffers, so they are the buffers'
  contents.
-/
import proofs.«133141_j5600637354122_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.KPieces

open Cert.KernelIdeal Cert.KernelIdeal.Gen

variable {F : FTy → Type} [FloatOps F]

theorem hz : (![0, 0] : Fin 2 → Nat) = fun _ => 0 := funext fun a => by fin_cases a <;> rfl

/-- First key block: the scratch is reset to the zero column, read back, and the block's row sums added. -/
theorem scratch_first (c : Dev nD) (i : grid0.Coords) (a2 : Memref sig .tc .vmem S2048x256 .bf16) (h2 : a2.IsWhole) (a3 : Memref sig .tc .vmem S512x256 .bf16) (h3 : a3.IsWhole) (a4 : Memref sig .tc .vmem S2048x512 .f32) (h4 : a4.IsWhole) (a5 : Memref sig .tc .vmem S2048x1 .f32) (h5 : a5.IsWhole) (a6 : Memref sig .tc .vmem S2048x1 .f32) (h6 : a6.IsWhole) (hc0 : cond0_0 i) (hc1 : ¬cond0_1 i)
    (x0 : Vec F S2048x256 .bf16) (x1 : Vec F S512x256 .bf16) (x2 : Vec F S2048x512 .f32) :
    sout0_A_0 c i a2 h2 a3 h3 a4 h4 a5 h5 a6 h6 hc0 hc1 x0 x1 x2 = k0_pay2 x0 x1 x2 (k0_pay1 (F := F)) := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S2048x1) hz, View.readCov_unit_zero (S := S2048x1) _ hz]
  simp only [View.readAt_eq_ld, h2.read_unread, h3.read_unread, h4.read_unread, h6.read_unread,
    View.ld_unit_zero (S := S2048x256) hz, View.ld_unit_zero (S := S512x256) hz, View.ld_unit_zero (S := S2048x512) hz,
    View.ld_unit_zero (S := S2048x1) hz]

/-- A middle key block: the block's row sums are added to what the scratch held. -/
theorem scratch_middle (c : Dev nD) (i : grid0.Coords) (a2 : Memref sig .tc .vmem S2048x256 .bf16) (h2 : a2.IsWhole) (a3 : Memref sig .tc .vmem S512x256 .bf16) (h3 : a3.IsWhole) (a4 : Memref sig .tc .vmem S2048x512 .f32) (h4 : a4.IsWhole) (a5 : Memref sig .tc .vmem S2048x1 .f32) (h5 : a5.IsWhole) (a6 : Memref sig .tc .vmem S2048x1 .f32) (h6 : a6.IsWhole) (hc0 : ¬cond0_0 i) (hc1 : ¬cond0_1 i)
    (x0 : Vec F S2048x256 .bf16) (x1 : Vec F S512x256 .bf16) (x2 : Vec F S2048x512 .f32) (xs0 : Vec F S2048x1 .f32) :
    sout0_B_0 c i a2 h2 a3 h3 a4 h4 a5 h5 a6 h6 hc0 hc1 x0 x1 x2 xs0 = k0_pay2 x0 x1 x2 xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz]
  simp only [View.readAt_eq_ld, h2.read_unread, h3.read_unread, h4.read_unread, h6.read_unread,
    View.ld_unit_zero (S := S2048x256) hz, View.ld_unit_zero (S := S512x256) hz, View.ld_unit_zero (S := S2048x512) hz,
    View.ld_unit_zero (S := S2048x1) hz]

/-- The last key block: the same for the scratch, -/
theorem scratch_last (c : Dev nD) (i : grid0.Coords) (a2 : Memref sig .tc .vmem S2048x256 .bf16) (h2 : a2.IsWhole) (a3 : Memref sig .tc .vmem S512x256 .bf16) (h3 : a3.IsWhole) (a4 : Memref sig .tc .vmem S2048x512 .f32) (h4 : a4.IsWhole) (a5 : Memref sig .tc .vmem S2048x1 .f32) (h5 : a5.IsWhole) (a6 : Memref sig .tc .vmem S2048x1 .f32) (h6 : a6.IsWhole) (hc0 : ¬cond0_0 i) (hc1 : cond0_1 i)
    (x0 : Vec F S2048x256 .bf16) (x1 : Vec F S512x256 .bf16) (x2 : Vec F S2048x512 .f32) (xs0 : Vec F S2048x1 .f32) :
    sout0_C_0 c i a2 h2 a3 h3 a4 h4 a5 h5 a6 h6 hc0 hc1 x0 x1 x2 xs0 = k0_pay2 x0 x1 x2 xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread,
    View.ld_unit_zero (S := S2048x256) hz, View.ld_unit_zero (S := S512x256) hz, View.ld_unit_zero (S := S2048x512) hz,
    View.ld_unit_zero (S := S2048x1) hz]

/-- and the output block is stored with the scratch's new contents, read back after the update. -/
theorem out_last (c : Dev nD) (i : grid0.Coords) (a2 : Memref sig .tc .vmem S2048x256 .bf16) (h2 : a2.IsWhole) (a3 : Memref sig .tc .vmem S512x256 .bf16) (h3 : a3.IsWhole) (a4 : Memref sig .tc .vmem S2048x512 .f32) (h4 : a4.IsWhole) (a5 : Memref sig .tc .vmem S2048x1 .f32) (h5 : a5.IsWhole) (a6 : Memref sig .tc .vmem S2048x1 .f32) (h6 : a6.IsWhole) (hc0 : ¬cond0_0 i) (hc1 : cond0_1 i)
    (x0 : Vec F S2048x256 .bf16) (x1 : Vec F S512x256 .bf16) (x2 : Vec F S2048x512 .f32) (xs0 : Vec F S2048x1 .f32) :
    out0_C_3 c i a2 h2 a3 h3 a4 h4 a5 h5 a6 h6 hc0 hc1 x0 x1 x2 xs0 = k0_pay2 x0 x1 x2 xs0 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz, View.readCov_unit_zero (S := S2048x1) _ hz]
  simp only [View.readAt_eq_ld, h2.read_unread, h3.read_unread, h4.read_unread, h6.read_unread,
    View.ld_unit_zero (S := S2048x256) hz, View.ld_unit_zero (S := S512x256) hz, View.ld_unit_zero (S := S2048x512) hz,
    View.ld_unit_zero (S := S2048x1) hz]

end Cert.KernelIdeal.KPieces

end
-- ==== Proof.LibDot.lean ====
/-
  A plain matrix product read at an entry. For the dimension numbers "contract the left operand's columns with the
  right operand's rows, no batch axis", both the vector unit's product into a zero accumulator and the host's
  product are, at entry (r, c) and over the extended reals, the sum over k of x(r, k) · w(k, c).
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-! ## The four coordinates of the operand indices

  With the left operand's rows the only free left axis, the right operand's columns the only free right axis and
  one shared axis, the left operand is read at (row of the entry, shared coordinate) and the right operand at
  (shared coordinate, column of the entry). Each of the four coordinates is its own statement, at the literal axis. -/

section Axes

variable {R K C : Nat} (d : DotDims ⟨2, ![R, K]⟩ ⟨2, ![K, C]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the shared coordinate. -/
theorem rhs_axis0 (hl : d.lhsContracting = [1]) (hr : d.rhsContracting = [0]) (j : (⟨2, ![R, C]⟩ : Shape).Idx)
    (k : d.contr.Idx) : (d.rhsIdx j k 0 : ℕ) = (k ⟨0, by rw [rank_contr_one d hl]; exact Nat.one_pos⟩ : ℕ) :=
  d.rhsIdx_val_of_single hr j k

/-- The right operand's column coordinate is the entry's column. -/
theorem rhs_axis1 (hln : d.lhsNonContracting = [0]) (hrn : d.rhsNonContracting = [1]) (hlb : d.lhsBatch = [])
    (hrb : d.rhsBatch = []) (j : (⟨2, ![R, C]⟩ : Shape).Idx) (k : d.contr.Idx) : (d.rhsIdx j k 1 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

end Axes

/-- The contraction sum of a plain product, re-indexed by the shared axis's coordinate: the left operand is read
    at (r, k), the right one at (k, c). -/
theorem contr_sum_plain {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (x : FVec Ideal ⟨2, ![R, K]⟩ φ₁) (w : FVec Ideal ⟨2, ![K, C]⟩ φ₂) (r : Fin R) (c : Fin C) :
    (∑ k : d.contr.Idx, x (d.lhsIdx (ix2 r c) k) * w (d.rhsIdx (ix2 r c) k)) = ∑ k : Fin K, x (ix2 r k) * w (ix2 k c) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 k c := by
    funext a
    match a with
    | ⟨0, _⟩ => exact Fin.ext ((rhs_axis0 d hl hr _ _).trans hk)
    | ⟨1, _⟩ => exact Fin.ext (rhs_axis1 d hln hrn hlb hrb _ _)
  rw [hx, hw]

/-- The vector unit's product into the zero accumulator, at entry (r, c). -/
theorem matmul_zero_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (x : FVec Ideal ⟨2, ![R, K]⟩ φ₁) (w : FVec Ideal ⟨2, ![K, C]⟩ φ₂) (r : Fin R) (c : Fin C) :
    FloatOps.matmul d prec x w (constant ⟨2, ![R, C]⟩ .f32 0x00000000#32) (ix2 r c) = ∑ k : Fin K, x (ix2 r k) * w (ix2 k c) := by
  rw [Ideal.matmul_constant_zero_apply]
  exact contr_sum_plain d hl hr hln hrn hlb hrb x w r c

/-- The host's product, at entry (r, c). -/
theorem dotGeneral_at {R K C : Nat} {φ₁ φ₂ : FTy} (d : DotDims ⟨2, ![R, K]⟩ ⟨2, ![K, C]⟩ ⟨2, ![R, C]⟩)
    (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (x : FVec Ideal ⟨2, ![R, K]⟩ φ₁) (w : FVec Ideal ⟨2, ![K, C]⟩ φ₂)
    (r : Fin R) (c : Fin C) :
    FloatOps.dotGeneral d prec sched x w (ix2 r c) = ∑ k : Fin K, x (ix2 r k) * w (ix2 k c) := by
  rw [Ideal.dotGeneral_apply]
  exact contr_sum_plain d hl hr hln hrn hlb hrb x w r c

end Cert.LibDot

end
-- ==== Proof.LibKeepdims.lean ====
/-
  Layout operations on a COLUMN of per-row values, read at an index given by coordinates — what a body that
  reduces along the last axis with the axis kept (`keepdims`) applies to the reduced vector:
  • an `[a]` vector cast to the column `[a, 1]` reads, at `(p, u)`, the operand at `p`;
  • a column `[a, 1]` broadcast along its unit axis to `[a, b]` reads, at `(p, q)`, the column at `(p, 0)`;
  • a `[1, 1]` array's one element taken at position `(0, 0)` is the array at `(0, 0)`;
  • the vector exponential read at an index is the exponential of the operand's entry (on the extended reals);
  • a sum along the last axis of a matrix, read at row `p`, is the sum over the columns of row `p`'s entries
    (on the extended reals, where the lane reduction is the exact sum).
  Each is the library's general read-at-an-index lemma with the coordinate arithmetic discharged.
-/
import Idealize.ShloMosaic.Lib.Pipeline.Value
import Idealize.ShloMosaic.Lib.ValueIdx
import Idealize.ShloMosaic.PureOps.Ideal.Laws

namespace Idealize.ShloMosaic.ValueIdx

open Idealize.ShloMosaic
open scoped BigOperators

variable {α : Type}

/-- An `[a]` vector cast to the column `[a, 1]` reads, at `(p, u)`, the operand at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The one element of a `[1, 1]` array taken at position `(0, 0)`. -/
theorem extractAt_11 (v : (⟨2, ![1, 1]⟩ : Shape).Idx → α) (h : ∀ a, (![0, 0] : Fin 2 → Nat) a < (⟨2, ![1, 1]⟩ : Shape).size a) :
    extractAt ![0, 0] v h = v (ix2 (0 : Fin 1) (0 : Fin 1)) := by
  unfold extractAt
  refine congrArg v (funext fun a => Fin.ext ?_)
  match a with
  | ⟨0, _⟩ => rfl
  | ⟨1, _⟩ => rfl

/-- On the extended reals the vector exponential, read at an index, is the exponential of the operand's entry there. -/
theorem exp_apply {s : Shape} {φ : FTy} (x : FVec Ideal s φ) (i : s.Idx) : exp x i = Ideal.exp (x i) := rfl

/-- On the extended reals, the sum along the last axis of an `[a, b]` matrix read at row `p`: the sum over the columns. -/
theorem multiReduction_add_rows_apply {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

end Idealize.ShloMosaic.ValueIdx
-- ==== Proof.KStep.lean ====
/-
  The body's one arithmetic expression, read at an entry over the extended reals.

  With x0 the query block (2048 × 256), x1 the key block (512 × 256), x2 the mask block (2048 × 512) and acc the
  accumulator column, the body computes acc + rowsum(x2 ⊙ (x0 · x1ᵀ)). At row r this is
      acc(r) + Σ_c x2(r, c) · Σ_d x0(r, d) · x1(c, d):
  the product into a zero accumulator is the plain sum of products, the lane reduction from zero the plain sum,
  the casts between equal shapes and from a vector to a column move nothing. The zero column is zero.
-/
import proofs.«133141_j5600637354122_1_alg».proof.Proof.Gen.KernelIdeal.Skeleton
import proofs.«133141_j5600637354122_1_alg».proof.Proof.LibDot
import proofs.«133141_j5600637354122_1_alg».proof.Proof.LibKeepdims
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.KStep

open Cert.KernelIdeal Cert.KernelIdeal.Gen

/-- The accumulator's update at row r. -/
theorem step_apply (x0 : FVec Ideal S2048x256 .bf16) (x1 : FVec Ideal S512x256 .bf16) (x2 : FVec Ideal S2048x512 .f32)
    (acc : FVec Ideal S2048x1 .f32) (r : Fin 2048) (z : Fin 1) :
    k0_pay2 (F := Ideal) x0 x1 x2 acc (ix2 r z)
      = acc (ix2 r z) + ∑ c : Fin 512, x2 (ix2 r c) * ∑ d : Fin 256, x0 (ix2 r d) * x1 (ix2 c d) := by
  unfold k0_pay2
  simp only [shapeCast_self]
  rw [addf_apply, shapeCast_a_a1_apply]
  refine congrArg (acc (ix2 r z) + ·) ((multiReduction_add_rows_apply _ _ _ _ _ r).trans (Finset.sum_congr rfl fun c _ => ?_))
  rw [mulf_apply]
  refine congrArg (x2 (ix2 r c) * ·) ((Cert.LibDot.matmul_zero_at _ rfl rfl rfl rfl rfl rfl none x0 _ r c).trans
    (Finset.sum_congr rfl fun d _ => ?_))
  refine congrArg (x0 (ix2 r d) * ·) ?_
  exact transpose_apply _ x1 _ (ix2 d c) (ix2 c d) (fun b => by match b with | ⟨0, _⟩ => rfl | ⟨1, _⟩ => rfl)

/-- The column the first key block resets the accumulator to is zero. -/
theorem zero_apply (i : S2048x1.Idx) : k0_pay1 (F := Ideal) i = 0 := by
  unfold k0_pay1
  simp only [shapeCast_self]
  exact Ideal.ofBits_zero_f32

end Cert.KernelIdeal.KStep

end
-- ==== Proof.KBlocks.lean ====
import proofs.«133141_j5600637354122_1_alg».proof.Proof.Gen.KernelIdeal.Frame
import Idealize.ShloMosaic.Lib.Pipeline.Value
import Idealize.ShloMosaic.Lib.Tactic
import Idealize.ShloMosaic.Lib.ValueIdx

noncomputable section

open Idealize.ShloMosaic Idealize.ShloMosaic.TcCoe Idealize.SL.Sem
open Idealize.ShloMosaic.Pipeline (Dat)
open Idealize.ShloMosaic.ValueIdx

/-
  Where each grid point's blocks lie in the arrays the region finds.

  The grid is 4 query blocks × 16 key blocks, the key block the fast axis: point t is query block t / 16 and key
  block t % 16. The query window's block at t is rows 2048·(t/16) … of q, the key window's block rows
  512·(t%16) … of k, the mask window's block those rows and those columns of adj; the output window's block is
  rows 2048·(t/16) … of the result column.
-/
namespace Cert.KernelIdeal.KBlocks

open Cert.KernelIdeal Cert.KernelIdeal.Gen

variable {F : FTy → Type} [FloatOps F]
variable (m : (ℓ : Loc nD τ sig) → Buf (Elt F) ℓ)

/-- Row r of query block a, as a row of the whole array. -/
abbrev row (a : Fin 4) (r : Fin 2048) : Fin 8192 := ⟨2048 * a.val + r.val, by have := a.isLt; have := r.isLt; omega⟩
/-- Column c of key block b, as a column of the whole mask (a row of k). -/
abbrev col (b : Fin 16) (c : Fin 512) : Fin 8192 := ⟨512 * b.val + c.val, by have := b.isLt; have := c.isLt; omega⟩

theorem N64 : cfg0.N = 64 := N_0

/-- The query block of point t, -/
abbrev qOf (t : Fin cfg0.N) : Fin 4 := ⟨t.val / 16, by have := t.isLt; have := N64; omega⟩
/-- and its key block. -/
abbrev kOf (t : Fin cfg0.N) : Fin 16 := ⟨t.val % 16, Nat.mod_lt _ (by decide)⟩

/-- The arrays as the region finds them, and a point's blocks, at their literal types. -/
abbrev Qarr (c : Dev nD) : FVec F S8192x256 .bf16 := V m c main_v4
abbrev Karr (c : Dev nD) : FVec F S8192x256 .bf16 := V m c main_v9
abbrev Aarr (c : Dev nD) : FVec F S8192x8192 .f32 := V m c main_arg1
abbrev qblk (c : Dev nD) (t : Fin cfg0.N) : FVec F S2048x256 .bf16 := iblk m c 0 t
abbrev kblk (c : Dev nD) (t : Fin cfg0.N) : FVec F S512x256 .bf16 := iblk m c 1 t
abbrev ablk (c : Dev nD) (t : Fin cfg0.N) : FVec F S2048x512 .f32 := iblk m c 2 t

/-- The printed index maps, decided over the grid. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = t.val % 16
    ∧ win0_3.index t (0 : Fin 2) = t.val / 16 ∧ win0_3.index t (1 : Fin 2) = 0 :=
  (by decide +kernel : ∀ t : Fin grid0.N, _)

theorem qblk_apply (c : Dev nD) (t : Fin cfg0.N) (r : Fin 2048) (d : Fin 256) :
    qblk m c t (ix2 r d) = Qarr m c (ix2 (row (qOf t) r) d) := by
  obtain ⟨e0, e1, -⟩ := idx_facts t
  show V m c main_v4 (((cfg0.win 0).blk t).view.emb (ix2 r d)) = V m c main_v4 (ix2 (row (qOf t) r) d)
  refine congrArg (V m c main_v4) (funext fun a => Fin.ext ?_)
  match a with
  | ⟨0, _⟩ => show win0_0.index t (0 : Fin 2) * 2048 + 1 * r.val = 2048 * (t.val / 16) + r.val; rw [e0]; omega
  | ⟨1, _⟩ => show win0_0.index t (1 : Fin 2) * 256 + 1 * d.val = d.val; rw [e1]; omega

theorem kblk_apply (c : Dev nD) (t : Fin cfg0.N) (j : Fin 512) (d : Fin 256) :
    kblk m c t (ix2 j d) = Karr m c (ix2 (col (kOf t) j) d) := by
  obtain ⟨-, -, e0, e1, -⟩ := idx_facts t
  show V m c main_v9 (((cfg0.win 1).blk t).view.emb (ix2 j d)) = V m c main_v9 (ix2 (col (kOf t) j) d)
  refine congrArg (V m c main_v9) (funext fun a => Fin.ext ?_)
  match a with
  | ⟨0, _⟩ => show win0_1.index t (0 : Fin 2) * 512 + 1 * j.val = 512 * (t.val % 16) + j.val; rw [e0]; omega
  | ⟨1, _⟩ => show win0_1.index t (1 : Fin 2) * 256 + 1 * d.val = d.val; rw [e1]; omega

theorem ablk_apply (c : Dev nD) (t : Fin cfg0.N) (r : Fin 2048) (j : Fin 512) :
    ablk m c t (ix2 r j) = Aarr m c (ix2 (row (qOf t) r) (col (kOf t) j)) := by
  obtain ⟨-, -, -, -, e0, e1, -⟩ := idx_facts t
  show V m c main_arg1 (((cfg0.win 2).blk t).view.emb (ix2 r j)) = V m c main_arg1 (ix2 (row (qOf t) r) (col (kOf t) j))
  refine congrArg (V m c main_arg1) (funext fun a => Fin.ext ?_)
  match a with
  | ⟨0, _⟩ => show win0_2.index t (0 : Fin 2) * 2048 + 1 * r.val = 2048 * (t.val / 16) + r.val; rw [e0]; omega
  | ⟨1, _⟩ => show win0_2.index t (1 : Fin 2) * 512 + 1 * j.val = 512 * (t.val % 16) + j.val; rw [e1]; omega

end Cert.KernelIdeal.KBlocks

end
-- ==== Proof.Spec.lean ====
/-
  The mathematics both programs share, stated once over the literal shapes.

  Both programs end with the same chain of host operations on the vector s of the N = 8192 masked row sums and on
  the projection v (N × 256): the softmax α = exp(s − max(−∞, max s)) / Σ exp(s − …) and the product of α,
  spread along each row, with v. The chain is named here (`shifted`, `alpha`, `scaled`) and never opened: the
  certificate only needs that both programs feed it equal arguments.

  The one algebraic fact the certificate rests on: a sum over 8192 columns, taken as sixteen consecutive runs of
  512 columns accumulated one after the other from zero, is the sum over all columns. Over the extended reals
  addition is commutative and associative, so this holds for every input.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev S0 : Shape := ⟨0, ![]⟩
abbrev S1 : Shape := ⟨1, ![1]⟩
abbrev SN : Shape := ⟨1, ![8192]⟩
abbrev SNx1 : Shape := ⟨2, ![8192, 1]⟩
abbrev SNxD : Shape := ⟨2, ![8192, 256]⟩

section Tail

variable {F : FTy → Type} [FloatOps F]
variable (hred : SN.ReducesTo [0] S0) (h0 : 0 < S0.numel)
  (hb1 : S0.BroadcastsInDim S1 (![] : Fin 0 → Fin S1.rank))
  (hb2 : S1.BroadcastsInDim SN (![0] : Fin 1 → Fin SN.rank))
  (hb3 : SN.BroadcastsInDim SNx1 (![0] : Fin 1 → Fin SNx1.rank))
  (hb4 : SNx1.BroadcastsInDim SNxD (![0, 1] : Fin 2 → Fin SNxD.rank))

/-- exp(s − M), M the maximum of −∞ and of all entries of s (folded from −∞). -/
def shifted (s : FVec F SN .f32) : FVec F SN .f32 :=
  Host.exp (subf s (broadcastInDim SN ![0] hb2 (broadcastInDim S1 ![] hb1
    (maximumf (constant S0 .f32 0xFF800000#32)
      (Host.reduce FloatOps.maximumf s (constant S0 .f32 0xFF800000#32) hred h0)))))

/-- The softmax of s: each shifted exponential over their sum (from zero). -/
def alpha (s : FVec F SN .f32) : FVec F SN .f32 :=
  Host.divf (shifted hred h0 hb1 hb2 s) (broadcastInDim SN ![0] hb2 (broadcastInDim S1 ![] hb1
    (Host.reduceAdd (shifted hred h0 hb1 hb2 s) (constant S0 .f32 0x00000000#32) hred h0)))

/-- Row r of v scaled by the softmax weight of r. -/
def scaled (s : FVec F SN .f32) (v : FVec F SNxD .f32) : FVec F SNxD .f32 :=
  mulf (broadcastInDim SNxD ![0, 1] hb4 (broadcastInDim SNx1 ![0] hb3 (alpha hred h0 hb1 hb2 s))) v

end Tail

/-! ## The three projections and the masked row sums, entry by entry -/

abbrev SD : Shape := ⟨1, ![256]⟩
abbrev SDxD : Shape := ⟨2, ![256, 256]⟩
abbrev SNxN : Shape := ⟨2, ![8192, 8192]⟩

/-- Entry (r, d) of x·W + b, b spread down the rows. -/
def lin (x : FVec Ideal SNxD .f32) (W : FVec Ideal SDxD .f32) (b : FVec Ideal SD .f32) (r : Fin 8192) (d : Fin 256) : EReal :=
  (∑ e : Fin 256, x (ix2 r e) * W (ix2 e d)) + b (ix1 d)

/-- Row r's masked sum of logits: Σ_j adj(r, j) · Σ_d q(r, d) · k(j, d). -/
def rowsum (adj : FVec Ideal SNxN .f32) (q k : Fin 8192 → Fin 256 → EReal) (r : Fin 8192) : EReal :=
  ∑ j : Fin 8192, adj (ix2 r j) * ∑ d : Fin 256, q r d * k j d

/-! ## Sixteen runs of 512 columns, accumulated from zero, are all 8192 columns -/

/-- Column c of run b. -/
abbrev col (b : Fin 16) (c : Fin 512) : Fin 8192 := ⟨512 * b.val + c.val, by have := b.isLt; have := c.isLt; omega⟩

/-- The sum of run b (zero past the last run: the accumulation below never reaches it). -/
def runSum (g : Fin 8192 → EReal) (b : ℕ) : EReal :=
  if h : b < 16 then ∑ c : Fin 512, g (col ⟨b, h⟩ c) else 0

/-- The sum over all columns is the sum of the sixteen runs' sums. -/
theorem sum_runs (g : Fin 8192 → EReal) : ∑ b ∈ Finset.range 16, runSum g b = ∑ j : Fin 8192, g j := by
  rw [Finset.sum_range (runSum g)]
  have e1 : ∀ b : Fin 16, runSum g b.val = ∑ c : Fin 512, g (col b c) := fun b => by
    unfold runSum; rw [dif_pos b.isLt]
  rw [Finset.sum_congr rfl fun b _ => e1 b, ← Finset.sum_product' (f := fun b c => g (col b c))]
  rw [← Equiv.sum_comp (finProdFinEquiv (m := 16) (n := 512)) g]
  refine Finset.sum_congr rfl fun x _ => congrArg g (Fin.ext ?_)
  show 512 * x.1.val + x.2.val = x.2.val + 512 * x.1.val
  omega

end Cert.Spec

end
-- ==== Proof.KChain.lean ====
/-
  The accumulation across the sixteen key blocks of one query block, and the array the region leaves.

  Over the extended reals. Write term(R, j) = adj(R, j) · Σ_d q(R, d) · k(j, d) for the arrays as the region finds
  them. At point t (query block a = t / 16, key block b = t % 16) the body adds to row r of the accumulator column
  the sum of term(2048a + r, ·) over the 512 columns of key block b; the first key block starts from the zero
  column. So after point t the accumulator's row r holds the sum of the runs 0 … b (induction on the point), after
  the last key block all sixteen runs — the whole row sum, addition on the extended reals being commutative and
  associative — and that column is what the last key block's point stores into the output block, which the
  pipeline writes back to rows 2048a … of the result. The four write-backs tile the result column.
-/
import proofs.«133141_j5600637354122_1_alg».proof.Proof.KPieces
import proofs.«133141_j5600637354122_1_alg».proof.Proof.KStep
import proofs.«133141_j5600637354122_1_alg».proof.Proof.KBlocks
import proofs.«133141_j5600637354122_1_alg».proof.Proof.Spec
import Idealize.ShloMosaic.Lib.Pipeline.Value
import Idealize.ShloMosaic.Lib.ValueIdx

noncomputable section

open scoped BigOperators
open Idealize.ShloMosaic Idealize.ShloMosaic.TcCoe Idealize.SL.Sem
open Idealize.ShloMosaic.Pipeline (Dat)
open Idealize.ShloMosaic.ValueIdx

namespace Cert.KernelIdeal.KChain

open Cert.KernelIdeal Cert.KernelIdeal.Gen Cert.KernelIdeal.KBlocks

variable (m : (ℓ : Loc nD τ sig) → Buf (Elt Ideal) ℓ)

/-- One term of row R's masked sum. -/
def term (c : Dev nD) (R j : Fin 8192) : EReal :=
  Aarr m c (ix2 R j) * ∑ d : Fin 256, Qarr m c (ix2 R d) * Karr m c (ix2 j d)

/-- What point t adds to row r of the accumulator: the run of its key block. -/
theorem added_eq (c : Dev nD) (t : Fin cfg0.N) (r : Fin 2048) :
    (∑ j : Fin 512, ablk m c t (ix2 r j) * ∑ d : Fin 256, qblk m c t (ix2 r d) * kblk m c t (ix2 j d))
      = Cert.Spec.runSum (term m c (row (qOf t) r)) (t.val % 16) := by
  unfold Cert.Spec.runSum
  rw [dif_pos (Nat.mod_lt _ (by decide))]
  refine Finset.sum_congr rfl fun j _ => ?_
  rw [ablk_apply]
  unfold term
  refine congrArg (Aarr m c (ix2 (row (qOf t) r) (col (kOf t) j)) * ·) (Finset.sum_congr rfl fun d _ => ?_)
  rw [qblk_apply, kblk_apply]

/-- The accumulator after a first key block's point: the update of the zero column. -/
theorem scratch_A (c : Dev nD) (t : Fin cfg0.N) (h0 : t.val % 16 = 0) (h1 : ¬t.val % 16 = 15) :
    (outsAt0 m c t.val t.isLt).2 = k0_pay2 (qblk m c t) (kblk m c t) (ablk m c t) (k0_pay1 (F := Ideal)) := by
  rw [outsAt0_A m c t h0 h1]
  dsimp only
  exact KPieces.scratch_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

/-- After a middle key block's point: the update of what the point before left. -/
theorem scratch_B (c : Dev nD) (t : Fin cfg0.N) (h0 : ¬t.val % 16 = 0) (h1 : ¬t.val % 16 = 15) :
    (outsAt0 m c t.val t.isLt).2 = k0_pay2 (qblk m c t) (kblk m c t) (ablk m c t) (outsAt0 m c (t.val - 1) (Nat.lt_of_le_of_lt (Nat.sub_le _ _) t.isLt)).2 := by
  rw [outsAt0_B m c t h0 h1]
  dsimp only
  exact KPieces.scratch_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

/-- After the last key block's point: the same, -/
theorem scratch_C (c : Dev nD) (t : Fin cfg0.N) (h0 : ¬t.val % 16 = 0) (h1 : t.val % 16 = 15) :
    (outsAt0 m c t.val t.isLt).2 = k0_pay2 (qblk m c t) (kblk m c t) (ablk m c t) (outsAt0 m c (t.val - 1) (Nat.lt_of_le_of_lt (Nat.sub_le _ _) t.isLt)).2 := by
  rw [outsAt0_C m c t h0 h1]
  dsimp only
  exact KPieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- and the output block holds that same column. -/
theorem out_C (c : Dev nD) (t : Fin cfg0.N) (h0 : ¬t.val % 16 = 0) (h1 : t.val % 16 = 15) :
    (outsAt0 m c t.val t.isLt).1 = (outsAt0 m c t.val t.isLt).2 := by
  rw [outsAt0_C m c t h0 h1]
  dsimp only
  exact (KPieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
    (KPieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm

/-- Row r of the accumulator after point n: the runs 0 … n % 16 of row 2048·(n / 16) + r. -/
theorem scratch_eq (c : Dev nD) : ∀ (n : ℕ) (h : n < cfg0.N) (r : Fin 2048) (z : Fin 1),
    (outsAt0 m c n h).2 (ix2 r z)
      = ∑ b ∈ Finset.range (n % 16 + 1), Cert.Spec.runSum (term m c (row (qOf ⟨n, h⟩) r)) b := by
  intro n
  induction n with
  | zero =>
    intro h r z
    have e := congrFun (scratch_A m c ⟨0, h⟩ rfl (by dsimp only; omega)) (ix2 r z)
    refine e.trans ?_
    rw [KStep.step_apply, KStep.zero_apply, zero_add, added_eq]
    exact (Finset.sum_range_one _).symm
  | succ n ih =>
    intro h r z
    have hN : n + 1 < 64 := lt_of_lt_of_eq h N64
    by_cases h0 : (n + 1) % 16 = 0
    · have e := congrFun (scratch_A m c ⟨n + 1, h⟩ h0 (by dsimp only; omega)) (ix2 r z)
      refine e.trans ?_
      rw [KStep.step_apply, KStep.zero_apply, zero_add, added_eq]
      show Cert.Spec.runSum _ ((n + 1) % 16) = _
      rw [h0]
      exact (Finset.sum_range_one _).symm
    · have hprev := ih (Nat.lt_of_succ_lt h) r z
      have hq : qOf ⟨n, Nat.lt_of_succ_lt h⟩ = qOf ⟨n + 1, h⟩ := Fin.ext (by dsimp only; omega)
      have hb : n % 16 + 1 = (n + 1) % 16 := by omega
      rw [hq, hb] at hprev
      have e : (outsAt0 m c (n + 1) h).2 (ix2 r z)
          = (outsAt0 m c n (Nat.lt_of_succ_lt h)).2 (ix2 r z)
            + ∑ j : Fin 512, ablk m c ⟨n + 1, h⟩ (ix2 r j) * ∑ d : Fin 256, qblk m c ⟨n + 1, h⟩ (ix2 r d) * kblk m c ⟨n + 1, h⟩ (ix2 j d) := by
        by_cases h1 : (n + 1) % 16 = 15
        · exact (congrFun (scratch_C m c ⟨n + 1, h⟩ h0 h1) (ix2 r z)).trans (KStep.step_apply _ _ _ _ r z)
        · exact (congrFun (scratch_B m c ⟨n + 1, h⟩ h0 h1) (ix2 r z)).trans (KStep.step_apply _ _ _ _ r z)
      rw [e, hprev, added_eq, Finset.sum_range_succ]

/-- The whole row sum the result holds at row R. -/
def rowsumK (c : Dev nD) (R : Fin 8192) : EReal :=
  Cert.Spec.rowsum (Aarr m c) (fun R d => Qarr m c (ix2 R d)) (fun j d => Karr m c (ix2 j d)) R

theorem rowsumK_eq (c : Dev nD) (R : Fin 8192) : rowsumK m c R = ∑ j : Fin 8192, term m c R j := rfl

/-- The result column as one function of the arrays the region finds. -/
def result (c : Dev nD) : Buf (Elt Ideal) ((c : Thread nD τ).loc main_v14) :=
  fun i => rowsumK m c ⟨(i 0).val, (i 0).isLt⟩

/-- What a last key block's point writes back is its block of that column. -/
theorem flushed_eq (c : Dev nD) (t : Fin cfg0.N) (hf : (cfg0.win 3).flush t = true) :
    (dats m 0 c).flushed 3 t = ((cfg0.win 3).blk t).view.read (Elt Ideal) (result m c) := by
  have h1 : t.val % 16 = 15 := (flush0_3 t).mp hf
  have h0 : ¬t.val % 16 = 0 := by omega
  obtain ⟨-, -, -, -, -, -, e0, e1⟩ := idx_facts t
  show (cfg0.win 3).cut (grid0.coords t) ((dats m 0 c).after 3 t) = _
  rw [after0_3, out_C m c t h0 h1]
  funext y
  obtain ⟨r, z, rfl⟩ : ∃ (r : Fin 2048) (z : Fin 1), y = ix2 r z := ⟨y 0, y 1, eq_ix2 y⟩
  show (outsAt0 m c t.val t.isLt).2 (ix2 r z) = result m c (((cfg0.win 3).blk t).view.emb (ix2 r z))
  rw [scratch_eq m c t.val t.isLt r z, h1, Cert.Spec.sum_runs]
  unfold result
  rw [rowsumK_eq]
  refine congrArg (fun R => ∑ j : Fin 8192, term m c R j) (Fin.ext ?_)
  show 2048 * (t.val / 16) + r.val = win0_3.index t (0 : Fin 2) * 2048 + 1 * r.val
  rw [e0]; omega

/-- An index of the result column is in point t's block iff its row is in the block's range. -/
theorem mem_blk (t : Fin cfg0.N) (i : S8192x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v14).slice (win0_3.rect t)).set ↔ _
  rw [View.set_slice_whole, Rect.mem_set_unit]
  exact Iff.rfl

/-- Row R is written back by the last key block's point of query block R / 2048. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  let t : Fin cfg0.N := ⟨16 * ((i 0).val / 2048) + 15, by rw [N64]; omega⟩
  obtain ⟨-, -, -, -, -, -, e0, e1⟩ := idx_facts t
  have ht : t.val = 16 * ((i 0).val / 2048) + 15 := rfl
  refine ⟨t, (flush0_3 t).mpr (by rw [ht]; omega), ?_⟩
  rw [mem_blk]
  intro a
  match a with
  | ⟨0, _⟩ => show win0_3.index t (0 : Fin 2) * 2048 ≤ (i 0).val ∧ (i 0).val < win0_3.index t (0 : Fin 2) * 2048 + 2048; rw [e0, ht]; omega
  | ⟨1, _⟩ => show win0_3.index t (1 : Fin 2) * 1 ≤ (i 1).val ∧ (i 1).val < win0_3.index t (1 : Fin 2) * 1 + 1; rw [e1]; omega

/-- THE RESULT COLUMN after the region: row R holds Σ_j adj(R, j) · Σ_d q(R, d) · k(j, d). -/
theorem final (c : Dev nD) : (dats m 0 c).arrAt 3 cfg0.N = result m c :=
  (dats m 0 c).arrAt_eq_of_cover 3 (result m c) (flushed_eq m c) cover

end Cert.KernelIdeal.KChain

end
-- ==== Proof.LibRowRead.lean ====
/-
  Reading row-wise operations of an R × C matrix at one index, over the extended reals.

  A reduction over the column axis, read at row r, ranges over the entries (r, c), c < C: with a maximum body it is
  the fold of max from the initial value over them, with an add body the initial value plus their sum. A vector with
  one entry per row, made a column and spread along the rows, reads at (r, c) the vector's entry r; a vector with one
  entry per column, made a row and spread down the columns, reads at (r, c) the vector's entry c.
-/
import Idealize.ShloMosaic.PureOps.Reduce
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.LibRowRead

open Idealize.ShloMosaic Idealize.ShloMosaic.ValueIdx

/-- The row index r with the column coordinate k put back is (r, k). -/
theorem lift_row {R C : Nat} (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  match c with
  | ⟨0, _⟩ => rfl
  | ⟨1, _⟩ => rfl

/-- The host's reduce with a maximum body over the columns, at row r: the fold of max over the row from the initial value. -/
theorem hostReduceMax_row {R C : Nat} (x : FVec Ideal ⟨2, ![R, C]⟩ .f32) (b : BitVec 32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x (constant (F := Ideal) (⟨0, ![]⟩ : Shape) .f32 b) h' hu (ix1 r)
      = (Finset.univ : Finset (Fin C)).fold max (Ideal.ofBits .f32 b) (fun c => x (ix2 r c)) := by
  rw [Host.reduce_eq_fold_single FloatOps.maximumf x _ h' h hu]
  have hf : (x ∘ h.lift (ix1 r)) = fun k : Fin C => x (ix2 r k) := funext fun k => congrArg x (lift_row h r k)
  exact congrArg (fun f => Finset.fold max (Ideal.ofBits .f32 b) f (Finset.univ : Finset (Fin C))) hf

/-- The host's reduce with an add body over the columns, at row r: the initial value plus the row's sum. -/
theorem hostReduceAdd_row {R C : Nat} {φ : FTy} (x : FVec Ideal ⟨2, ![R, C]⟩ φ) (init : (⟨0, ![]⟩ : Shape).Idx → Ideal φ)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd x init h' hu (ix1 r) = init (Shape.Idx.first hu) + ∑ c : Fin C, x (ix2 r c) := by
  rw [hostReduceAdd_apply, Ideal.hostReduceAdd_single h' h]
  refine congrArg (fun s => init (Shape.Idx.first hu) + s) ?_
  exact Finset.sum_congr rfl fun k _ => congrArg x (lift_row h r k)

/-- A vector of n entries made an n × 1 column reads, at (e, 0), its entry e. -/
theorem bcast_column_apply {α : Type} {n : Nat} (h : (⟨1, ![n]⟩ : Shape).BroadcastsInDim (⟨2, ![n, 1]⟩ : Shape) ![0])
    (v : (⟨1, ![n]⟩ : Shape).Idx → α) (e : Fin n) (z : Fin 1) :
    broadcastInDim (⟨2, ![n, 1]⟩ : Shape) ![0] h v (ix2 e z) = v (ix1 e) := by
  refine broadcastInDim_apply _ h v _ (ix1 e) fun a => ?_
  match a with
  | ⟨0, _⟩ =>
    show e.val = if n = 1 then 0 else e.val
    split
    · have := e.isLt; omega
    · rfl

/-- An R × 1 column spread along the rows reads, at (r, c), the column's entry r. -/
theorem bcast_alongRows_apply {α : Type} {R C : Nat} (h2 : (⟨2, ![R, 1]⟩ : Shape).BroadcastsInDim (⟨2, ![R, C]⟩ : Shape) ![0, 1])
    (w : (⟨2, ![R, 1]⟩ : Shape).Idx → α) (r : Fin R) (c : Fin C) :
    broadcastInDim (⟨2, ![R, C]⟩ : Shape) ![0, 1] h2 w (ix2 r c) = w (ix2 r (0 : Fin 1)) := by
  refine broadcastInDim_apply _ h2 w _ (ix2 r (0 : Fin 1)) fun a => ?_
  match a with
  | ⟨0, _⟩ =>
    show r.val = if R = 1 then 0 else r.val
    split
    · have := r.isLt; omega
    · rfl
  | ⟨1, _⟩ => rfl

/-- A vector with one entry per row, made a column and spread along the rows, reads at (r, c) its entry r. -/
theorem bcast_perRow_apply {α : Type} {R C : Nat} (h1 : (⟨1, ![R]⟩ : Shape).BroadcastsInDim (⟨2, ![R, 1]⟩ : Shape) ![0])
    (h2 : (⟨2, ![R, 1]⟩ : Shape).BroadcastsInDim (⟨2, ![R, C]⟩ : Shape) ![0, 1])
    (v : (⟨1, ![R]⟩ : Shape).Idx → α) (r : Fin R) (c : Fin C) :
    broadcastInDim (⟨2, ![R, C]⟩ : Shape) ![0, 1] h2 (broadcastInDim (⟨2, ![R, 1]⟩ : Shape) ![0] h1 v) (ix2 r c) = v (ix1 r) := by
  exact (bcast_alongRows_apply h2 _ r c).trans (bcast_column_apply h1 v r 0)

/-- A vector with one entry per column, made a row and spread down the columns, reads at (r, c) its entry c. -/
theorem bcast_perCol_apply {α : Type} {R C : Nat} (h1 : (⟨1, ![C]⟩ : Shape).BroadcastsInDim (⟨2, ![1, C]⟩ : Shape) ![1])
    (h2 : (⟨2, ![1, C]⟩ : Shape).BroadcastsInDim (⟨2, ![R, C]⟩ : Shape) ![0, 1])
    (v : (⟨1, ![C]⟩ : Shape).Idx → α) (r : Fin R) (c : Fin C) :
    broadcastInDim (⟨2, ![R, C]⟩ : Shape) ![0, 1] h2 (broadcastInDim (⟨2, ![1, C]⟩ : Shape) ![1] h1 v) (ix2 r c) = v (ix1 c) := by
  have hc : ∀ m : Nat, ∀ c : Fin C, c.val = if C = 1 then 0 else c.val := fun _ c => by
    split
    · have := c.isLt; omega
    · rfl
  refine (broadcastInDim_apply _ h2 _ _ (ix2 (0 : Fin 1) c) fun a => ?_).trans
    (broadcastInDim_apply _ h1 v _ (ix1 c) fun a => ?_)
  · match a with
    | ⟨0, _⟩ => rfl
    | ⟨1, _⟩ => exact hc 0 c
  · match a with
    | ⟨0, _⟩ => exact hc 0 c

end Cert.LibRowRead

end
-- ==== Proof.KHost.lean ====
/-
  The host operations around the region.

  Before it: q = x·Wq + bq and k = x·Wk + bk, each converted to the 16-bit format the region stages (over the
  extended reals a change of format moves nothing), and v = x·Wv + bv. Entry (r, d) of each is
  Σ_e x(r, e)·W(e, d) + b(d).
  After it: the result column is reshaped to a vector s, and the two results are the softmax of s and the rows of
  v scaled by it — the chain of operations named once for both programs.
-/
import proofs.«133141_j5600637354122_1_alg».proof.Proof.Gen.KernelIdeal.Frame
import proofs.«133141_j5600637354122_1_alg».proof.Proof.Spec
import proofs.«133141_j5600637354122_1_alg».proof.Proof.LibDot
import proofs.«133141_j5600637354122_1_alg».proof.Proof.LibRowRead
import Idealize.ShloMosaic.Lib.Pipeline.Value
import Idealize.ShloMosaic.Lib.StableHlo.Run
import Idealize.ShloMosaic.Lib.Tactic
import Idealize.ShloMosaic.Lib.ValueIdx

noncomputable section

open scoped BigOperators
open Idealize.ShloMosaic Idealize.ShloMosaic.TcCoe Idealize.SL.Sem
open Idealize.ShloMosaic.Pipeline (Dat)
open Idealize.ShloMosaic.ValueIdx

namespace Cert.KernelIdeal.KHost

open Cert.KernelIdeal Cert.KernelIdeal.Gen

section AnyF

variable {F : FTy → Type} [FloatOps F]
variable (m : (ℓ : Loc nD τ sig) → Buf (Elt F) ℓ)

/-- The region finds q, k and v at the host operations' terms of the arguments. -/
theorem Vq_eq (c : Dev nD) : (V m c main_v4 : FVec F S8192x256 .bf16)
    = truncf .bf16 (addf (Host.dotGeneral dot_S8192x256_S256x256_S8192x256_1_0_0_1_n_n none (m ((c : Thread nD τ).loc main_arg0)) (m ((c : Thread nD τ).loc main_arg2)))
        (broadcastInDim S8192x256 ![0, 1] bcast_S1x256_S8192x256_0_1 (broadcastInDim S1x256 ![1] bcast_S256_S1x256_1 (m ((c : Thread nD τ).loc main_arg3))))) bitsLt_bf16_f32 := by
  show StableHlo.after hostOps0 (fun b => m (c, b)) (Proc.devRef .tc main_v4) = _
  after_results

theorem Vk_eq (c : Dev nD) : (V m c main_v9 : FVec F S8192x256 .bf16)
    = truncf .bf16 (addf (Host.dotGeneral dot_S8192x256_S256x256_S8192x256_1_0_0_1_n_n none (m ((c : Thread nD τ).loc main_arg0)) (m ((c : Thread nD τ).loc main_arg4)))
        (broadcastInDim S8192x256 ![0, 1] bcast_S1x256_S8192x256_0_1 (broadcastInDim S1x256 ![1] bcast_S256_S1x256_1 (m ((c : Thread nD τ).loc main_arg5))))) bitsLt_bf16_f32 := by
  show StableHlo.after hostOps0 (fun b => m (c, b)) (Proc.devRef .tc main_v9) = _
  after_results

theorem Vv_eq (c : Dev nD) : (V m c main_v13 : FVec F S8192x256 .f32)
    = addf (Host.dotGeneral dot_S8192x256_S256x256_S8192x256_1_0_0_1_n_n none (m ((c : Thread nD τ).loc main_arg0)) (m ((c : Thread nD τ).loc main_arg6)))
        (broadcastInDim S8192x256 ![0, 1] bcast_S1x256_S8192x256_0_1 (broadcastInDim S1x256 ![1] bcast_S256_S1x256_1 (m ((c : Thread nD τ).loc main_arg7)))) := by
  show StableHlo.after hostOps0 (fun b => m (c, b)) (Proc.devRef .tc main_v13) = _
  after_results

/-- The host operations after the region read the result column where the region left it, -/
theorem tail_reads_result (c : Dev nD) :
    Pipeline.withArrays (cfgs 0).spec c (V0 m c) (fun w => (dats m 0 c).arrAt w (cfgs 0).N) (Proc.devRef .tc main_v14)
      = (dats m 0 c).arrAt 3 cfg0.N :=
  Pipeline.withArrays_arr spec0 launch0.win.arr_inj c _ _ 3

/-- and v where the host operations before the region left it. -/
theorem tail_reads_v (c : Dev nD) :
    Pipeline.withArrays (cfgs 0).spec c (V0 m c) (fun w => (dats m 0 c).arrAt w (cfgs 0).N) (Proc.devRef .tc main_v13)
      = V m c main_v13 :=
  Pipeline.withArrays_of_ne _ c (V0 m c) _ main_v13 (by exact (by decide : ∀ w, Pipeline.arrRef spec0 w ≠ main_v13))

/-- The vector of masked row sums: the result column reshaped. -/
abbrev svec (c : Dev nD) : FVec F S8192 .f32 := shapeCast S8192 ((dats m 0 c).arrAt 3 cfg0.N) shapeCasts_S8192x1_S8192

/-- The second result: the softmax of s. -/
theorem tail_alpha (c : Dev nD) : Pipeline.afterTail₀ cfgs (dats m) 0 (V0 m) [hostOps1] c main_v25
    = Cert.Spec.alpha reducesTo_S8192_S_d0 h_S_ bcast_S_S1 bcast_S1_S8192_0 (svec m c) := by
  unfold Pipeline.afterTail₀
  show StableHlo.after hostOps1 _ (Proc.devRef .tc main_v25) = _
  after_results
  rw [tail_reads_result]
  rfl

/-- The first result: v's rows scaled by it. -/
theorem tail_scaled (c : Dev nD) : Pipeline.afterTail₀ cfgs (dats m) 0 (V0 m) [hostOps1] c main_v28
    = Cert.Spec.scaled reducesTo_S8192_S_d0 h_S_ bcast_S_S1 bcast_S1_S8192_0 bcast_S8192_S8192x1_0 bcast_S8192x1_S8192x256_0_1
        (svec m c) (V m c main_v13) := by
  unfold Pipeline.afterTail₀
  show StableHlo.after hostOps1 _ (Proc.devRef .tc main_v28) = _
  after_results
  rw [tail_reads_result, tail_reads_v]
  rfl

end AnyF

/-! ## Over the extended reals, entry by entry -/

variable (m : (ℓ : Loc nD τ sig) → Buf (Elt Ideal) ℓ)

/-- Entry (r, d) of x·W + b as the host computes it. -/
theorem proj_apply (x : FVec Ideal S8192x256 .f32) (W : FVec Ideal S256x256 .f32) (b : FVec Ideal S256 .f32) (r : Fin 8192) (d : Fin 256) :
    addf (Host.dotGeneral dot_S8192x256_S256x256_S8192x256_1_0_0_1_n_n none x W)
        (broadcastInDim S8192x256 ![0, 1] bcast_S1x256_S8192x256_0_1 (broadcastInDim S1x256 ![1] bcast_S256_S1x256_1 b)) (ix2 r d)
      = Cert.Spec.lin x W b r d := by
  rw [addf_apply, Cert.LibRowRead.bcast_perCol_apply]
  unfold Cert.Spec.lin
  refine congrArg (· + b (ix1 d)) ?_
  simp only [Host.dotGeneral]
  exact Cert.LibDot.dotGeneral_at _ rfl rfl rfl rfl rfl rfl none _ x W r d

theorem Vq_apply (c : Dev nD) (r : Fin 8192) (d : Fin 256) :
    (V m c main_v4 : FVec Ideal S8192x256 .bf16) (ix2 r d)
      = Cert.Spec.lin (m ((c : Thread nD τ).loc main_arg0)) (m ((c : Thread nD τ).loc main_arg2)) (m ((c : Thread nD τ).loc main_arg3)) r d := by
  rw [Vq_eq]
  exact proj_apply _ _ _ r d

theorem Vk_apply (c : Dev nD) (r : Fin 8192) (d : Fin 256) :
    (V m c main_v9 : FVec Ideal S8192x256 .bf16) (ix2 r d)
      = Cert.Spec.lin (m ((c : Thread nD τ).loc main_arg0)) (m ((c : Thread nD τ).loc main_arg4)) (m ((c : Thread nD τ).loc main_arg5)) r d := by
  rw [Vk_eq]
  exact proj_apply _ _ _ r d

theorem Vv_apply (c : Dev nD) (r : Fin 8192) (d : Fin 256) :
    (V m c main_v13 : FVec Ideal S8192x256 .f32) (ix2 r d)
      = Cert.Spec.lin (m ((c : Thread nD τ).loc main_arg0)) (m ((c : Thread nD τ).loc main_arg6)) (m ((c : Thread nD τ).loc main_arg7)) r d := by
  rw [Vv_eq]
  exact proj_apply _ _ _ r d

end Cert.KernelIdeal.KHost

end
-- ==== Proof.RefValue.lean ====
/-
  The reference, read.

  Its two results are the softmax of the vector s of masked row sums and v's rows scaled by it — the chain of host
  operations named once for both programs — where, over the extended reals, entry (r, d) of q, k, v is
  Σ_e x(r, e)·W(e, d) + b(d) and row r of s is Σ_j adj(r, j) · Σ_d q(r, d) · k(j, d): the host's product with the
  transposed k contracts q's row r with k's row j, and the host's sum from zero is the plain sum.
-/
import proofs.«133141_j5600637354122_1_alg».proof.Proof.Gen.ReferenceIdeal.Run
import proofs.«133141_j5600637354122_1_alg».proof.Proof.Gen.ReferenceIdeal.Read
import proofs.«133141_j5600637354122_1_alg».proof.Proof.Spec
import proofs.«133141_j5600637354122_1_alg».proof.Proof.LibDot
import proofs.«133141_j5600637354122_1_alg».proof.Proof.LibRowRead
import Idealize.ShloMosaic.Lib.Pipeline.Value
import Idealize.ShloMosaic.Lib.ValueIdx
import Idealize.ShloMosaic.PureOps.Ideal.Laws

noncomputable section

open scoped BigOperators
open Idealize.ShloMosaic Idealize.ShloMosaic.TcCoe Idealize.SL.Sem
open Idealize.ShloMosaic.ValueIdx

namespace Cert.ReferenceIdeal.RefValue

open Cert.ReferenceIdeal Cert.ReferenceIdeal.Gen Cert.ReferenceIdeal.Read

/-! ## The results are the shared chain of s and v -/

section AnyF

variable {F : FTy → Type} [FloatOps F]
variable (m : (ℓ : Loc nD τ sig) → Buf (Elt F) ℓ)

/-- The vector of masked row sums, as the reference computes it from the arguments. -/
abbrev svec (c : Dev nD) : FVec F S8192 .f32 := val_main_v15 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- v, as the reference computes it. -/
abbrev vmat (c : Dev nD) : FVec F S8192x256 .f32 :=
  val_main_v11 (F := F) (m ((c.tc : Thread nD τ).loc main_arg0)) (m ((c.tc : Thread nD τ).loc main_arg6)) (m ((c.tc : Thread nD τ).loc main_arg7))

theorem res_alpha (c : Dev nD) : Cert.ReferenceIdeal.Value.res_main_v25 m c
    = Cert.Spec.alpha reducesTo_S8192_S_d0 h_S_ bcast_S_S1 bcast_S1_S8192_0 (svec m c) := by
  unfold Cert.ReferenceIdeal.Value.res_main_v25; rfl

theorem res_scaled (c : Dev nD) : Cert.ReferenceIdeal.Value.res_main_v28 m c
    = Cert.Spec.scaled reducesTo_S8192_S_d0 h_S_ bcast_S_S1 bcast_S1_S8192_0 bcast_S8192_S8192x1_0 bcast_S8192x1_S8192x256_0_1
        (svec m c) (vmat m c) := by
  unfold Cert.ReferenceIdeal.Value.res_main_v28; rfl

end AnyF

/-! ## Over the extended reals, entry by entry -/

/-- Entry (r, d) of x·W + b as the host computes it. -/
theorem proj_apply (x : FVec Ideal S8192x256 .f32) (W : FVec Ideal S256x256 .f32) (b : FVec Ideal S256 .f32) (r : Fin 8192) (d : Fin 256) :
    addf (Host.dotGeneral dot_S8192x256_S256x256_S8192x256_1_0_0_1_n_n none x W)
        (broadcastInDim S8192x256 ![0, 1] bcast_S1x256_S8192x256_0_1 (broadcastInDim S1x256 ![1] bcast_S256_S1x256_1 b)) (ix2 r d)
      = Cert.Spec.lin x W b r d := by
  rw [addf_apply, Cert.LibRowRead.bcast_perCol_apply]
  unfold Cert.Spec.lin
  refine congrArg (· + b (ix1 d)) ?_
  simp only [Host.dotGeneral]
  exact Cert.LibDot.dotGeneral_at _ rfl rfl rfl rfl rfl rfl none _ x W r d

theorem q_apply (x0 : FVec Ideal S8192x256 .f32) (x2 : FVec Ideal S256x256 .f32) (x3 : FVec Ideal S256 .f32) (r : Fin 8192) (d : Fin 256) :
    val_main_v3 (F := Ideal) x0 x2 x3 (ix2 r d) = Cert.Spec.lin x0 x2 x3 r d := proj_apply x0 x2 x3 r d

theorem k_apply (x0 : FVec Ideal S8192x256 .f32) (x4 : FVec Ideal S256x256 .f32) (x5 : FVec Ideal S256 .f32) (r : Fin 8192) (d : Fin 256) :
    val_main_v7 (F := Ideal) x0 x4 x5 (ix2 r d) = Cert.Spec.lin x0 x4 x5 r d := proj_apply x0 x4 x5 r d

theorem v_apply (x0 : FVec Ideal S8192x256 .f32) (x6 : FVec Ideal S256x256 .f32) (x7 : FVec Ideal S256 .f32) (r : Fin 8192) (d : Fin 256) :
    val_main_v11 (F := Ideal) x0 x6 x7 (ix2 r d) = Cert.Spec.lin x0 x6 x7 r d := proj_apply x0 x6 x7 r d

/-- Row r of s. -/
theorem s_apply (x0 : FVec Ideal S8192x256 .f32) (x1 : FVec Ideal S8192x8192 .f32) (x2 : FVec Ideal S256x256 .f32) (x3 : FVec Ideal S256 .f32) (x4 : FVec Ideal S256x256 .f32) (x5 : FVec Ideal S256 .f32) (r : Fin 8192) :
    val_main_v15 (F := Ideal) x0 x1 x2 x3 x4 x5 (ix1 r)
      = Cert.Spec.rowsum x1 (Cert.Spec.lin x0 x2 x3) (Cert.Spec.lin x0 x4 x5) r := by
  unfold val_main_v15 val_main_v14 val_main_v13 val_main_v12 val_main_cst
  have hq : ∀ a b, val_main_v3 (F := Ideal) x0 x2 x3 (ix2 a b) = Cert.Spec.lin x0 x2 x3 a b := q_apply x0 x2 x3
  have hk : ∀ a b, val_main_v7 (F := Ideal) x0 x4 x5 (ix2 a b) = Cert.Spec.lin x0 x4 x5 a b := k_apply x0 x4 x5
  generalize val_main_v3 (F := Ideal) x0 x2 x3 = q at hq ⊢
  generalize val_main_v7 (F := Ideal) x0 x4 x5 = k at hk ⊢
  refine (Cert.LibRowRead.hostReduceAdd_row _ _ reducesTo_S8192x8192_S8192_d1 (by decide) h_S_ r).trans ?_
  show Ideal.ofBits .f32 0x00000000#32 + _ = _
  rw [Ideal.ofBits_zero_f32, zero_add]
  unfold Cert.Spec.rowsum
  refine Finset.sum_congr rfl fun j _ => ?_
  rw [mulf_apply]
  refine congrArg (x1 (ix2 r j) * ·) ?_
  simp only [Host.dotGeneral]
  refine (Cert.LibDot.dotGeneral_at _ rfl rfl rfl rfl rfl rfl none _ q _ r j).trans (Finset.sum_congr rfl fun d _ => ?_)
  rw [hq, transpose_apply _ k _ (ix2 d j) (ix2 j d) (fun b => by match b with | ⟨0, _⟩ => rfl | ⟨1, _⟩ => rfl), hk]

end Cert.ReferenceIdeal.RefValue

end
-- ==== Proof.Bridge.lean ====
/-
  The two programs feed the shared chain equal arguments.

  From memories that agree on the eight arguments: the vector s the kernel's program reshapes out of the region's
  result column and the vector s the reference sums are equal entry by entry — both are, at row r,
  Σ_j adj(r, j) · Σ_d q(r, d) · k(j, d) with q, k the same projections of x — and so are the two v.
-/
import proofs.«133141_j5600637354122_1_alg».proof.Proof.KChain
import proofs.«133141_j5600637354122_1_alg».proof.Proof.KHost
import proofs.«133141_j5600637354122_1_alg».proof.Proof.RefValue

noncomputable section

open scoped BigOperators
open Idealize.ShloMosaic Idealize.ShloMosaic.TcCoe Idealize.SL.Sem
open Idealize.ShloMosaic.ValueIdx

namespace Cert.Bridge

/-- An [a, 1] column cast to the [a] vector reads, at p, the column's entry of row p. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- Row r of the kernel program's s, in the arguments. -/
theorem kernel_s_apply (c : Dev Cert.KernelIdeal.nD) (r : Fin 8192) :
    Cert.KernelIdeal.KHost.svec m c (ix1 r)
      = Cert.Spec.rowsum (m ((c.tc : Thread Cert.KernelIdeal.nD Cert.KernelIdeal.τ).loc Cert.KernelIdeal.main_arg1))
          (Cert.Spec.lin (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
          (Cert.Spec.lin (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) r := by
  have hq : (fun R d => Cert.KernelIdeal.KBlocks.Qarr m c (ix2 R d))
      = Cert.Spec.lin (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) :=
    funext fun R => funext fun d => Cert.KernelIdeal.KHost.Vq_apply m c R d
  have hk : (fun R d => Cert.KernelIdeal.KBlocks.Karr m c (ix2 R d))
      = Cert.Spec.lin (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
    funext fun R => funext fun d => Cert.KernelIdeal.KHost.Vk_apply m c R d
  have ha : Cert.KernelIdeal.KBlocks.Aarr m c = (m ((c.tc : Thread Cert.KernelIdeal.nD Cert.KernelIdeal.τ).loc Cert.KernelIdeal.main_arg1)) := Cert.KernelIdeal.Gen.V_main_arg1 m c
  refine (shapeCast_a1_a_apply _ _ r).trans ?_
  rw [Cert.KernelIdeal.KChain.final]
  show Cert.KernelIdeal.KChain.rowsumK m c r = _
  unfold Cert.KernelIdeal.KChain.rowsumK
  rw [hq, hk, ha]

/-- The two programs' s agree, -/
theorem s_eq (c : Dev Cert.KernelIdeal.nD)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) :
    Cert.ReferenceIdeal.RefValue.svec m' c = Cert.KernelIdeal.KHost.svec m c := by
  obtain ⟨e0, e1, e2, e3, e4, e5, -, -⟩ := hagree
  funext i
  obtain ⟨r, rfl⟩ : ∃ r : Fin 8192, i = ix1 r := ⟨i 0, eq_ix1 i⟩
  rw [kernel_s_apply]
  refine (Cert.ReferenceIdeal.RefValue.s_apply _ _ _ _ _ _ r).trans ?_
  rw [e0, e1, e2, e3, e4, e5]

/-- and the two v. -/
theorem v_eq (c : Dev Cert.KernelIdeal.nD)
    (hagree : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))) :
    Cert.ReferenceIdeal.RefValue.vmat m' c = (Cert.KernelIdeal.Gen.V m c Cert.KernelIdeal.main_v13 : FVec Ideal Cert.KernelIdeal.S8192x256 .f32) := by
  obtain ⟨e0, -, -, -, -, -, e6, e7⟩ := hagree
  funext i
  obtain ⟨r, d, rfl⟩ : ∃ (r : Fin 8192) (d : Fin 256), i = ix2 r d := ⟨i 0, i 1, eq_ix2 i⟩
  rw [Cert.KernelIdeal.KHost.Vv_apply]
  refine (Cert.ReferenceIdeal.RefValue.v_apply _ _ _ r d).trans ?_
  rw [e0, e6, e7]

end Cert.Bridge

end
-- ==== Proof.lean ====
/-
  The certificate: a masked-attention row-sum kernel against its jnp reference, over the extended reals.

  Both programs compute q = x·Wq + bq, k = x·Wk + bk, v = x·Wv + bv, the vector s with
  s(r) = Σ_j adj(r, j) · Σ_d q(r, d) · k(j, d), the softmax α of s, and return (α(r)·v(r, ·), α).
  The kernel program converts q and k to a 16-bit format (the identity over the extended reals) and computes s in
  a pallas_call over a 4 × 16 grid: for each block of 2048 rows it accumulates, key block by key block of 512
  columns, the row sums of adj ⊙ (q·kᵀ) in a scratch column starting from zero, and stores the column after the
  sixteenth. The reference multiplies q by the transposed k, masks, and sums each whole row from zero. Addition on
  the extended reals is commutative and associative, so the sixteen partial sums accumulated in order are the
  whole row's sum for every input; no finiteness of the inputs is used. The softmax and the final scaling are the
  same chain of host operations in both programs and are carried as one function of (s, v).

  The three frames: the kernel's and its idealization's are the generated frame certificates; the reference's is
  its generated run with the results dropped. The idealization rewrote nothing.
-/
import proofs.«133141_j5600637354122_1_alg».proof.Defs
import proofs.«133141_j5600637354122_1_alg».proof.Proof.Gen.Kernel
import proofs.«133141_j5600637354122_1_alg».proof.Proof.Gen.Kernel.Frame
import proofs.«133141_j5600637354122_1_alg».proof.Proof.Gen.KernelIdeal
import proofs.«133141_j5600637354122_1_alg».proof.Proof.Gen.KernelIdeal.Frame
import proofs.«133141_j5600637354122_1_alg».proof.Proof.Gen.ReferenceIdeal
import proofs.«133141_j5600637354122_1_alg».proof.Proof.Gen.ReferenceIdeal.Run
import proofs.«133141_j5600637354122_1_alg».proof.Proof.Gen.Pre_finite_inputs
import proofs.«133141_j5600637354122_1_alg».proof.Proof.Bridge
import Idealize.ShloMosaic.Adequacy
import Idealize.ShloMosaic.Init

noncomputable section

namespace Cert.Proof

open Idealize.ShloMosaic Idealize.ShloMosaic.TcCoe Idealize.SL.Sem

/-- The idealized kernel program's run with both results named: v's rows scaled by the softmax of s, and that
    softmax, s the region's result column reshaped; the arguments unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v28) = Cert.Spec.scaled Cert.KernelIdeal.Facts₀.reducesTo_S8192_S_d0 Cert.KernelIdeal.Facts₀.h_S_ Cert.KernelIdeal.Facts₀.bcast_S_S1 Cert.KernelIdeal.Facts₀.bcast_S1_S8192_0 Cert.KernelIdeal.Facts₀.bcast_S8192_S8192x1_0 Cert.KernelIdeal.Facts₀.bcast_S8192x1_S8192x256_0_1 (Cert.KernelIdeal.KHost.svec m c) (Cert.KernelIdeal.Gen.V m c Cert.KernelIdeal.main_v13)
      ∧ r.2.mem ((c.tc : Thread Cert.KernelIdeal.nD Cert.KernelIdeal.τ).loc Cert.KernelIdeal.main_v25) = Cert.Spec.alpha Cert.KernelIdeal.Facts₀.reducesTo_S8192_S_d0 Cert.KernelIdeal.Facts₀.h_S_ Cert.KernelIdeal.Facts₀.bcast_S_S1 Cert.KernelIdeal.Facts₀.bcast_S1_S8192_0 (Cert.KernelIdeal.KHost.svec m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun _ h c =>
    ⟨((h c).2 Cert.KernelIdeal.main_v28 (Pipeline.mem_restRefs_of Cert.KernelIdeal.main_v28 (by decide) (by decide))).trans (Cert.KernelIdeal.KHost.tail_scaled m c),
      ((h c).2 Cert.KernelIdeal.main_v25 (Pipeline.mem_restRefs_of Cert.KernelIdeal.main_v25 (by decide) (by decide))).trans (Cert.KernelIdeal.KHost.tail_alpha m c),
      ((h c).2 Cert.KernelIdeal.main_arg0 (Pipeline.mem_restRefs_of Cert.KernelIdeal.main_arg0 (by decide) (by decide))).trans (Cert.KernelIdeal.Gen.W_main_arg0 m (Cert.KernelIdeal.Gen.dats m) c),
      ((h c).1 2).trans (((Cert.KernelIdeal.Gen.dats m 0 c).arrAt_in 2 rfl _).trans ((Cert.KernelIdeal.Gen.A_eq m c 2).trans (Cert.KernelIdeal.Gen.V_main_arg1 m c))),
      ((h c).2 Cert.KernelIdeal.main_arg2 (Pipeline.mem_restRefs_of Cert.KernelIdeal.main_arg2 (by decide) (by decide))).trans (Cert.KernelIdeal.Gen.W_main_arg2 m (Cert.KernelIdeal.Gen.dats m) c),
      ((h c).2 Cert.KernelIdeal.main_arg3 (Pipeline.mem_restRefs_of Cert.KernelIdeal.main_arg3 (by decide) (by decide))).trans (Cert.KernelIdeal.Gen.W_main_arg3 m (Cert.KernelIdeal.Gen.dats m) c),
      ((h c).2 Cert.KernelIdeal.main_arg4 (Pipeline.mem_restRefs_of Cert.KernelIdeal.main_arg4 (by decide) (by decide))).trans (Cert.KernelIdeal.Gen.W_main_arg4 m (Cert.KernelIdeal.Gen.dats m) c),
      ((h c).2 Cert.KernelIdeal.main_arg5 (Pipeline.mem_restRefs_of Cert.KernelIdeal.main_arg5 (by decide) (by decide))).trans (Cert.KernelIdeal.Gen.W_main_arg5 m (Cert.KernelIdeal.Gen.dats m) c),
      ((h c).2 Cert.KernelIdeal.main_arg6 (Pipeline.mem_restRefs_of Cert.KernelIdeal.main_arg6 (by decide) (by decide))).trans (Cert.KernelIdeal.Gen.W_main_arg6 m (Cert.KernelIdeal.Gen.dats m) c),
      ((h c).2 Cert.KernelIdeal.main_arg7 (Pipeline.mem_restRefs_of Cert.KernelIdeal.main_arg7 (by decide) (by decide))).trans (Cert.KernelIdeal.Gen.W_main_arg7 m (Cert.KernelIdeal.Gen.dats m) c)⟩)
    (Cert.KernelIdeal.Gen.run_main m ρ)

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the shared chain applied to equal s and v. -/
theorem algebraic : Cert.algebraic_KernelIdeal_ReferenceIdeal := by
  intro m ρ m' ρ' _ hagree
  refine ⟨fun c => Cert.Spec.scaled Cert.KernelIdeal.Facts₀.reducesTo_S8192_S_d0 Cert.KernelIdeal.Facts₀.h_S_ Cert.KernelIdeal.Facts₀.bcast_S_S1 Cert.KernelIdeal.Facts₀.bcast_S1_S8192_0 Cert.KernelIdeal.Facts₀.bcast_S8192_S8192x1_0 Cert.KernelIdeal.Facts₀.bcast_S8192x1_S8192x256_0_1 (Cert.KernelIdeal.KHost.svec m c) (Cert.KernelIdeal.Gen.V m c Cert.KernelIdeal.main_v13), fun c => Cert.Spec.alpha Cert.KernelIdeal.Facts₀.reducesTo_S8192_S_d0 Cert.KernelIdeal.Facts₀.h_S_ Cert.KernelIdeal.Facts₀.bcast_S_S1 Cert.KernelIdeal.Facts₀.bcast_S1_S8192_0 (Cert.KernelIdeal.KHost.svec m c), kernel_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.RefValue.res_scaled, Cert.Bridge.s_eq m m' c (hagree c), Cert.Bridge.v_eq m m' c (hagree c)]
  · rw [Cert.ReferenceIdeal.RefValue.res_alpha, Cert.Bridge.s_eq m m' c (hagree c)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
